-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S32x1 .f32) (main_arg5 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x1024x512 .f32) (main_arg1 : FVec F S2x1024x512 .f32) (main_arg2 : FVec F S1024x32 .f32) (main_arg3 : FVec F S32 .f32) (main_arg4 : FVec F S32x1 .f32) (main_arg5 : FVec F S1 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S2x1024x512 .f32 := Host.absf main_arg1
  let main_cst_0 : FVec F S_ .f32 := constant S_ .f32 0x7F800000#32
  let main_v5 : FVec F S2x1024x512 .f32 := broadcastInDim S2x1024x512 ![] bcast_S_S2x1024x512 main_cst_0
  let main_v6 : IVec S2x1024x512 1 := cmpf .olt main_v4 main_v5
  let main_c_1 : IVec S_ 1 := constantI S_ 1 1#1
  let main_v7 : IVec S_ 1 := (fun x v => Host.reduce IntOp.andi x v reducesTo_S2x1024x512_S_d0_1_2 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S512x32 : Shape := ⟨2, ![512, 32]⟩
abbrev S2x1024x32 : Shape := ⟨3, ![2, 1024, 32]⟩
abbrev S1x1024x512 : Shape := ⟨3, ![1, 1024, 512]⟩
abbrev S1x1024x32 : Shape := ⟨3, ![1, 1024, 32]⟩
abbrev S1024x512 : Shape := ⟨2, ![1024, 512]⟩
abbrev S2x32x1024 : Shape := ⟨3, ![2, 32, 1024]⟩
abbrev S1x32 : Shape := ⟨2, ![1, 32]⟩
abbrev S1x1 : Shape := ⟨2, ![1, 1]⟩
abbrev S2x1024x1024 : Shape := ⟨3, ![2, 1024, 1024]⟩
abbrev S1x32x1024 : Shape := ⟨3, ![1, 32, 1024]⟩
abbrev S1x64x32 : Shape := ⟨3, ![1, 64, 32]⟩
abbrev S1x64x1024 : Shape := ⟨3, ![1, 64, 1024]⟩
abbrev S32x1024 : Shape := ⟨2, ![32, 1024]⟩
abbrev S64x32 : Shape := ⟨2, ![64, 32]⟩
abbrev S64x32x1 : Shape := ⟨3, ![64, 32, 1]⟩
abbrev S64x32x1024 : Shape := ⟨3, ![64, 32, 1024]⟩
abbrev S1x32x1 : Shape := ⟨3, ![1, 32, 1]⟩
abbrev S64x1024 : Shape := ⟨2, ![64, 1024]⟩

abbrev nBuf : Space → Nat
  | .hbm => 15
  | .vmem => 19
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S1024x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S512x32, .f32⟩
  | .hbm, ⟨7, _⟩ => ⟨S512x32, .f32⟩
  | .hbm, ⟨8, _⟩ => ⟨S2x1024x32, .f32⟩
  | .hbm, ⟨9, _⟩ => ⟨S2x1024x32, .f32⟩
  | .hbm, ⟨10, _⟩ => ⟨S2x32x1024, .f32⟩
  | .hbm, ⟨11, _⟩ => ⟨S1x32, .f32⟩
  | .hbm, ⟨12, _⟩ => ⟨S1x32, .f32⟩
  | .hbm, ⟨13, _⟩ => ⟨S1x1, .f32⟩
  | .hbm, ⟨14, _⟩ => ⟨S2x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x32, .f32⟩
  | .local _ .vmem, ⟨3, _⟩ => ⟨S1x1024x32, .f32⟩
  | .local _ .vmem, ⟨4, _⟩ => ⟨S1x1024x32, .f32⟩
  | .local _ .vmem, ⟨5, _⟩ => ⟨S1x1024x512, .f32⟩
  | .local _ .vmem, ⟨6, _⟩ => ⟨S1x1024x512, .f32⟩
  | .local _ .vmem, ⟨7, _⟩ => ⟨S512x32, .f32⟩
  | .local _ .vmem, ⟨8, _⟩ => ⟨S1x1024x32, .f32⟩
  | .local _ .vmem, ⟨9, _⟩ => ⟨S1x1024x32, .f32⟩
  | .local _ .vmem, ⟨10, _⟩ => ⟨S1x32x1024, .f32⟩
  | .local _ .vmem, ⟨11, _⟩ => ⟨S1x32x1024, .f32⟩
  | .local _ .vmem, ⟨12, _⟩ => ⟨S1x64x32, .f32⟩
  | .local _ .vmem, ⟨13, _⟩ => ⟨S1x64x32, .f32⟩
  | .local _ .vmem, ⟨14, _⟩ => ⟨S1x32, .f32⟩
  | .local _ .vmem, ⟨15, _⟩ => ⟨S1x32, .f32⟩
  | .local _ .vmem, ⟨16, _⟩ => ⟨S1x1, .f32⟩
  | .local _ .vmem, ⟨17, _⟩ => ⟨S1x64x1024, .f32⟩
  | .local _ .vmem, ⟨18, _⟩ => ⟨S1x64x1024, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x64x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x64x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S1024x32_S512x32_0_0 : S1024x32.Slices ![0, 0] S512x32
  slices_S1024x32_S512x32_512_0 : S1024x32.Slices ![512, 0] S512x32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  transposes_S2x1024x32_S2x32x1024_0_2_1 : S2x1024x32.Transposes [0, 2, 1] S2x32x1024
  shapeCasts_S32_S1x32 : S32.ShapeCasts S1x32
  transposes_S32x1_S1x32_1_0 : S32x1.Transposes [1, 0] S1x32
  shapeCasts_S1_S1x1 : S1.ShapeCasts S1x1
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  inb_S1x32_S1x32_0_0 : ∀ a, (![0, 0] : Fin 2 → Nat) a + S1x32.size a ≤ S1x32.size a
  h_S1x32 : 0 < S1x32.numel
  shapeCasts_S1x32_S32 : S1x32.ShapeCasts S32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x32_S64x32x1 : S64x32.ShapeCasts S64x32x1
  shapeCasts_S32x1024_S1x32x1024 : S32x1024.ShapeCasts S1x32x1024
  broadcasts_S64x32x1_S64x32x1024 : S64x32x1.Broadcasts S64x32x1024
  broadcasts_S1x32x1024_S64x32x1024 : S1x32x1024.Broadcasts S64x32x1024
  shapeCasts_S32_S1x32x1 : S32.ShapeCasts S1x32x1
  broadcasts_S1x32x1_S64x32x1024 : S1x32x1.Broadcasts S64x32x1024
  reduces_S64x32x1024_S64x1024 : S64x32x1024.Reduces [1] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x1024x512.size a
  hwx0_0 : ∀ i : grid0.Coords, EltTy.bits .f32 = 32 ∨ (Rect.block (s := S2x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32.size a ≤ S2x1024x32.size a
  hwx0_2 : ∀ i : grid0.Coords, EltTy.bits .f32 = 32 ∨ (Rect.block (s := S2x1024x32) S1x1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S2x1024x512.size a
  hwx1_0 : ∀ i : grid1.Coords, EltTy.bits .f32 = 32 ∨ (Rect.block (s := S2x1024x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x32.size a ≤ S512x32.size a
  hwx1_1 : ∀ i : grid1.Coords, EltTy.bits .f32 = 32 ∨ (Rect.block (s := S512x32) S512x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x32.size a ≤ S2x1024x32.size a
  hwx1_2 : ∀ i : grid1.Coords, EltTy.bits .f32 = 32 ∨ (Rect.block (s := S2x1024x32) S1x1024x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S2x32x1024.size a
  hwx2_0 : ∀ i : grid2.Coords, EltTy.bits .f32 = 32 ∨ (Rect.block (s := S2x32x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x32.size a ≤ S2x1024x32.size a
  hwx2_1 : ∀ i : grid2.Coords, EltTy.bits .f32 = 32 ∨ (Rect.block (s := S2x1024x32) S1x64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x64x1024.size a ≤ S2x1024x1024.size a
  hwx2_5 : ∀ i : grid2.Coords, EltTy.bits .f32 = 32 ∨ (Rect.block (s := S2x1024x1024) S1x64x1024.size (cc2_transform_5 i) (hinb2_5 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x64x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x64x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x1024x512 : Shape := ⟨3, ![2, 1024, 512]⟩
abbrev S1024x32 : Shape := ⟨2, ![1024, 32]⟩
abbrev S32 : Shape := ⟨1, ![32]⟩
abbrev S32x1 : Shape := ⟨2, ![32, 1]⟩
abbrev S1 : Shape := ⟨1, ![1]⟩
abbrev S512x32 : Shape := ⟨2, ![512, 32]⟩
abbrev S2x1024x32 : Shape := ⟨3, ![2, 1024, 32]⟩
abbrev S2x1x1024x32 : Shape := ⟨4, ![2, 1, 1024, 32]⟩
abbrev S2x1024x1x32 : Shape := ⟨4, ![2, 1024, 1, 32]⟩
abbrev S2x1024x1024x32 : Shape := ⟨4, ![2, 1024, 1024, 32]⟩
abbrev S1x1x1x32 : Shape := ⟨4, ![1, 1, 1, 32]⟩
abbrev S2x1024x1024x1 : Shape := ⟨4, ![2, 1024, 1024, 1]⟩
abbrev S2x1024x1024 : Shape := ⟨3, ![2, 1024, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S1024x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S512x32, .f32⟩
  | .hbm, ⟨7, _⟩ => ⟨S2x1024x32, .f32⟩
  | .hbm, ⟨8, _⟩ => ⟨S512x32, .f32⟩
  | .hbm, ⟨9, _⟩ => ⟨S2x1024x32, .f32⟩
  | .hbm, ⟨10, _⟩ => ⟨S2x1x1024x32, .f32⟩
  | .hbm, ⟨11, _⟩ => ⟨S2x1024x1x32, .f32⟩
  | .hbm, ⟨12, _⟩ => ⟨S2x1024x1024x32, .f32⟩
  | .hbm, ⟨13, _⟩ => ⟨S2x1024x1024x32, .f32⟩
  | .hbm, ⟨14, _⟩ => ⟨S2x1024x1024x32, .f32⟩
  | .hbm, ⟨15, _⟩ => ⟨S1x1x1x32, .f32⟩
  | .hbm, ⟨16, _⟩ => ⟨S2x1024x1024x32, .f32⟩
  | .hbm, ⟨17, _⟩ => ⟨S2x1024x1024x32, .f32⟩
  | .hbm, ⟨18, _⟩ => ⟨S2x1024x1024x32, .f32⟩
  | .hbm, ⟨19, _⟩ => ⟨S2x1024x1024x1, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S1024x32_S512x32_0_0 : S1024x32.Slices ![0, 0] S512x32
  slices_S1024x32_S512x32_512_0 : S1024x32.Slices ![512, 0] S512x32
  bcast_S2x1024x32_S2x1x1024x32_0_2_3 : S2x1024x32.BroadcastsInDim S2x1x1024x32 (![0, 2, 3] : Fin 3 → Fin S2x1x1024x32.rank)
  bcast_S2x1024x32_S2x1024x1x32_0_1_3 : S2x1024x32.BroadcastsInDim S2x1024x1x32 (![0, 1, 3] : Fin 3 → Fin S2x1024x1x32.rank)
  bcast_S2x1x1024x32_S2x1024x1024x32_0_1_2_3 : S2x1x1024x32.BroadcastsInDim S2x1024x1024x32 (![0, 1, 2, 3] : Fin 4 → Fin S2x1024x1024x32.rank)
  bcast_S2x1024x1x32_S2x1024x1024x32_0_1_2_3 : S2x1024x1x32.BroadcastsInDim S2x1024x1024x32 (![0, 1, 2, 3] : Fin 4 → Fin S2x1024x1024x32.rank)
  bcast_S32_S1x1x1x32_3 : S32.BroadcastsInDim S1x1x1x32 (![3] : Fin 1 → Fin S1x1x1x32.rank)
  bcast_S1x1x1x32_S2x1024x1024x32_0_1_2_3 : S1x1x1x32.BroadcastsInDim S2x1024x1024x32 (![0, 1, 2, 3] : Fin 4 → Fin S2x1024x1024x32.rank)
  shapeCasts_S2x1024x1024x1_S2x1024x1024 : S2x1024x1024x1.ShapeCasts S2x1024x1024
  shapeCasts_S1_S_ : S1.ShapeCasts S_
  bcast_S_S2x1024x1024 : S_.BroadcastsInDim S2x1024x1024 (![] : Fin 0 → Fin S2x1024x1024.rank)
  dot_S2x1024x512_S512x32_S2x1024x32_2_0_01_1_n_n_wf : DotDims.WF S2x1024x512 S512x32 S2x1024x32 [2] [0] [0, 1] [1] [] []
  dot_S2x1024x1024x32_S32x1_S2x1024x1024x1_3_0_012_1_n_n_wf : DotDims.WF S2x1024x1024x32 S32x1 S2x1024x1024x1 [3] [0] [0, 1, 2] [1] [] []

variable [Facts₀]

def dot_S2x1024x512_S512x32_S2x1024x32_2_0_01_1_n_n : DotDims S2x1024x512 S512x32 S2x1024x32 where
  lhsContracting := [2]
  rhsContracting := [0]
  lhsNonContracting := [0, 1]
  rhsNonContracting := [1]
  lhsBatch := []
  rhsBatch := []
  wf := dot_S2x1024x512_S512x32_S2x1024x32_2_0_01_1_n_n_wf
def dot_S2x1024x1024x32_S32x1_S2x1024x1024x1_3_0_012_1_n_n : DotDims S2x1024x1024x32 S32x1 S2x1024x1024x1 where
  lhsContracting := [3]
  rhsContracting := [0]
  lhsNonContracting := [0, 1, 2]
  rhsNonContracting := [1]
  lhsBatch := []
  rhsBatch := []
  wf := dot_S2x1024x1024x32_S32x1_S2x1024x1024x1_3_0_012_1_n_n_wf

class Facts : Prop extends Facts₀ where

variable [Facts]
-- ==== Proof.Spec.lean ====
/-
  The mathematics of the additive-attention scorer, as plain functions on the extended reals.

  With K, Q : [2, 1024, 512] (keys and queries), W1 : [1024, 32], b1 : [32], W2 : [32, 1], b2 : [1]:

    hk[b, k, h] = Σ_d K[b, k, d] · W1[d, h]            (the keys against the upper half of W1)
    hq[b, q, h] = Σ_d Q[b, q, d] · W1[512 + d, h]      (the queries against the lower half)
    logits[b, q, k] = (Σ_h tanh((hq[b, q, h] + hk[b, k, h]) + b1[h]) · W2[h, 0]) + b2[0]

  `proj` is one projection against a stored 512×32 weight; `score` is the scorer over the five operands
  as the third launch finds them (hk transposed to [2, 32, 1024], hq, and b1, W2, b2 as rows); `logits`
  is the whole function of the six arguments.  Sums over the extended reals are unordered, so nothing
  here depends on how a sum is tiled.
-/
import Idealize.ShloMosaic.PureOps.Ideal
import Idealize.ShloMosaic.Lib.ValueIdx

noncomputable section

namespace Cert.Spec

open Idealize.ShloMosaic Idealize.ShloMosaic.ValueIdx

abbrev SAct : Shape := ⟨3, ![2, 1024, 512]⟩
abbrev SW1 : Shape := ⟨2, ![1024, 32]⟩
abbrev SHalf : Shape := ⟨2, ![512, 32]⟩
abbrev SHid : Shape := ⟨3, ![2, 1024, 32]⟩
abbrev SHidT : Shape := ⟨3, ![2, 32, 1024]⟩
abbrev SRow : Shape := ⟨2, ![1, 32]⟩
abbrev SOne : Shape := ⟨2, ![1, 1]⟩
abbrev SOut : Shape := ⟨3, ![2, 1024, 1024]⟩
abbrev SVec : Shape := ⟨1, ![32]⟩
abbrev SCol : Shape := ⟨2, ![32, 1]⟩
abbrev SUnit : Shape := ⟨1, ![1]⟩

/-- One projection at explicit coordinates: row `n` of batch `b` of `X` against column `h` of `W`. -/
def projAt (X : SAct.Idx → EReal) (W : SHalf.Idx → EReal) (b : Fin 2) (n : Fin 1024) (h : Fin 32) : EReal :=
  ∑ d : Fin 512, X (ix3 b n d) * W (ix2 d h)

/-- The projection as an array [2, 1024, 32]. -/
def proj (X : SAct.Idx → EReal) (W : SHalf.Idx → EReal) : SHid.Idx → EReal := fun i =>
  projAt X W ⟨(i 0).val, (i 0).isLt⟩ ⟨(i 1).val, (i 1).isLt⟩ ⟨(i 2).val, (i 2).isLt⟩

/-- The scorer at explicit coordinates, over the operands as the third launch finds them. -/
def scoreAt (hkT : SHidT.Idx → EReal) (hq : SHid.Idx → EReal) (b1r w2r : SRow.Idx → EReal) (b2r : SOne.Idx → EReal)
    (b : Fin 2) (q : Fin 1024) (k : Fin 1024) : EReal :=
  (∑ h : Fin 32, Ideal.tanh ((hq (ix3 b q h) + hkT (ix3 b h k)) + b1r (ix2 0 h)) * w2r (ix2 0 h)) + b2r (ix2 0 0)

/-- The scorer as an array [2, 1024, 1024]. -/
def score (hkT : SHidT.Idx → EReal) (hq : SHid.Idx → EReal) (b1r w2r : SRow.Idx → EReal) (b2r : SOne.Idx → EReal) :
    SOut.Idx → EReal := fun i =>
  scoreAt hkT hq b1r w2r b2r ⟨(i 0).val, (i 0).isLt⟩ ⟨(i 1).val, (i 1).isLt⟩ ⟨(i 2).val, (i 2).isLt⟩

/-- hk at explicit coordinates: keys against rows 0 … 511 of W1. -/
def hkAt (K : SAct.Idx → EReal) (W1 : SW1.Idx → EReal) (b : Fin 2) (k : Fin 1024) (h : Fin 32) : EReal :=
  ∑ d : Fin 512, K (ix3 b k d) * W1 (ix2 ⟨d.val, by have := d.isLt; omega⟩ h)

/-- hq at explicit coordinates: queries against rows 512 … 1023 of W1. -/
def hqAt (Q : SAct.Idx → EReal) (W1 : SW1.Idx → EReal) (b : Fin 2) (q : Fin 1024) (h : Fin 32) : EReal :=
  ∑ d : Fin 512, Q (ix3 b q d) * W1 (ix2 ⟨512 + d.val, by have := d.isLt; omega⟩ h)

/-- The logits at explicit coordinates, as a function of the six arguments. -/
def logitsAt (K Q : SAct.Idx → EReal) (W1 : SW1.Idx → EReal) (b1 : SVec.Idx → EReal) (W2 : SCol.Idx → EReal)
    (b2 : SUnit.Idx → EReal) (b : Fin 2) (q : Fin 1024) (k : Fin 1024) : EReal :=
  (∑ h : Fin 32, Ideal.tanh ((hqAt Q W1 b q h + hkAt K W1 b k h) + b1 (ix1 h)) * W2 (ix2 h 0)) + b2 (ix1 0)

/-- The logits as an array [2, 1024, 1024]. -/
def logits (K Q : SAct.Idx → EReal) (W1 : SW1.Idx → EReal) (b1 : SVec.Idx → EReal) (W2 : SCol.Idx → EReal)
    (b2 : SUnit.Idx → EReal) : SOut.Idx → EReal := fun i =>
  logitsAt K Q W1 b1 W2 b2 ⟨(i 0).val, (i 0).isLt⟩ ⟨(i 1).val, (i 1).isLt⟩ ⟨(i 2).val, (i 2).isLt⟩

end Cert.Spec

end
-- ==== Proof.OperandsValue.lean ====
/-
  The scorer over the operands the third launch is entered with, as a function of the six arguments.

  The third launch reads hk transposed, hq, and b1, W2, b2 laid out as rows:
    hkT = transpose (proj K (rows 0 … 511 of W1)),   hq = proj Q (rows 512 … 1023 of W1),
    b1 as [1, 32],   W2 : [32, 1] transposed to [1, 32],   b2 as [1, 1].
  Reading each layout operation at an index (a transpose swaps two coordinates, a slice shifts one, a cast
  that adds a unit axis forgets it) turns `score` of these operands into `logits` of the arguments, term by
  term under the sum over the hidden axis.
-/
import proofs.«178992_j6597069767500_1_alg».proof.Proof.Spec
import Idealize.ShloMosaic.Lib.ValueLayout

noncomputable section

namespace Cert.Spec

open Idealize.ShloMosaic Idealize.ShloMosaic.ValueIdx

/-- The projection array at written-out coordinates. -/
theorem proj_ix (X : SAct.Idx → EReal) (W : SHalf.Idx → EReal) (b : Fin 2) (n : Fin 1024) (h : Fin 32) :
    proj X W (ix3 b n h) = projAt X W b n h := rfl

/-- Against the upper half of W1 (rows 0 … 511) a projection of the keys is hk. -/
theorem projAt_upper (K : SAct.Idx → EReal) (W1 : SW1.Idx → EReal) (hlo : SW1.Slices ![0, 0] SHalf)
    (b : Fin 2) (k : Fin 1024) (h : Fin 32) :
    projAt K (extractStridedSlice SHalf ![0, 0] W1 hlo) b k h = hkAt K W1 b k h := by
  unfold projAt hkAt
  refine Finset.sum_congr rfl fun d _ => ?_
  exact congrArg (K (ix3 b k d) * ·)
    (slice2_axis0_apply 0 W1 hlo d h ⟨d.val, by have := d.isLt; omega⟩ (Nat.zero_add _).symm)

/-- Against the lower half of W1 (rows 512 … 1023) a projection of the queries is hq. -/
theorem projAt_lower (Q : SAct.Idx → EReal) (W1 : SW1.Idx → EReal) (hhi : SW1.Slices ![512, 0] SHalf)
    (b : Fin 2) (q : Fin 1024) (h : Fin 32) :
    projAt Q (extractStridedSlice SHalf ![512, 0] W1 hhi) b q h = hqAt Q W1 b q h := by
  unfold projAt hqAt
  refine Finset.sum_congr rfl fun d _ => ?_
  exact congrArg (Q (ix3 b q d) * ·)
    (slice2_axis0_apply 512 W1 hhi d h ⟨512 + d.val, by have := d.isLt; omega⟩ rfl)

/-- The scorer of the re-laid operands is the logits of the arguments. -/
theorem score_operands (K Q : SAct.Idx → EReal) (W1 : SW1.Idx → EReal) (b1 : SVec.Idx → EReal) (W2 : SCol.Idx → EReal)
    (b2 : SUnit.Idx → EReal) (hT : SHid.Transposes [0, 2, 1] SHidT) (hlo : SW1.Slices ![0, 0] SHalf)
    (hhi : SW1.Slices ![512, 0] SHalf) (hb1 : SVec.ShapeCasts SRow) (hw2 : SCol.Transposes [1, 0] SRow)
    (hb2 : SUnit.ShapeCasts SOne) :
    score (transpose SHidT [0, 2, 1] (proj K (extractStridedSlice SHalf ![0, 0] W1 hlo)) hT)
        (proj Q (extractStridedSlice SHalf ![512, 0] W1 hhi))
        (shapeCast SRow b1 hb1) (transpose SRow [1, 0] W2 hw2) (shapeCast SOne b2 hb2)
      = logits K Q W1 b1 W2 b2 := by
  funext i
  unfold score logits scoreAt logitsAt
  refine congrArg₂ (· + ·) (Finset.sum_congr rfl fun h _ => ?_) ?_
  · rw [transpose_ix3_021_apply, transpose_ix2_apply, shapeCast_a_1a_apply, proj_ix, proj_ix, projAt_upper, projAt_lower]
  · exact shapeCast_a_1a_apply b2 hb2 0 0

end Cert.Spec

end
-- ==== Proof.Chain.lean ====
/-
  The result array of the kernel's program as a function of its six arguments, at the ideal instance.

  @main is: two slices of W1 on the host; the keys' projection (launch 0) and the queries' (launch 1); on the host
  the transpose of hk and the re-laying of b1, W2, b2 as rows; the scorer (launch 2).  The buffer contents at each
  boundary are the frame's fold (`Gen.W1` … `Gen.W5`): a host stretch applies its operations, a launch replaces
  its arrays by what its write-backs leave and keeps every other buffer.  Walking the fold back from the result:
  the result is the third launch's output array, which is `score` of that launch's operands (`hscore`); each
  operand is a layout operation of an earlier boundary's buffer; hk and hq are the first two launches' output
  arrays, each `proj` of its operands (`hkeys`, `hqueries`); and an argument buffer no operation writes holds
  what it was launched with.  `Spec.score_operands` then reads the layout operations at an index.

  The three facts about the launches' output arrays are hypotheses here, so that this module depends on none of
  the modules that prove them.
-/
import proofs.«178992_j6597069767500_1_alg».proof.Proof.Gen.KernelIdeal.Frame
import proofs.«178992_j6597069767500_1_alg».proof.Proof.Spec
import proofs.«178992_j6597069767500_1_alg».proof.Proof.OperandsValue
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first host stretch: the two halves of W1; the arguments untouched -/

theorem keys_entry0 (c : Dev nD) : V1 m ρ c main_arg0 = m ((c : Thread nD τ).loc main_arg0) := by
  show StableHlo.after hostOps0 (W0 m ρ c) (Proc.devRef .tc main_arg0) = _
  after_results

theorem upper_entry0 (c : Dev nD) :
    V1 m ρ c main_v0 = extractStridedSlice S512x32 ![0, 0] (m ((c : Thread nD τ).loc main_arg2)) slices_S1024x32_S512x32_0_0 := by
  show StableHlo.after hostOps0 (W0 m ρ c) (Proc.devRef .tc main_v0) = _
  after_results

theorem queries_entry1 (c : Dev nD) : V2 m ρ c main_arg1 = m ((c : Thread nD τ).loc main_arg1) :=
  (W2_of_ne m ρ c main_arg1 (by decide)).trans (by
    show StableHlo.after hostOps0 (W0 m ρ c) (Proc.devRef .tc main_arg1) = _
    after_results)

theorem lower_entry1 (c : Dev nD) :
    V2 m ρ c main_v1 = extractStridedSlice S512x32 ![512, 0] (m ((c : Thread nD τ).loc main_arg2)) slices_S1024x32_S512x32_512_0 :=
  (W2_of_ne m ρ c main_v1 (by decide)).trans (by
    show StableHlo.after hostOps0 (W0 m ρ c) (Proc.devRef .tc main_v1) = _
    after_results)

/-- An argument buffer that neither the first host stretch nor the first two launches write holds, after them, what
    it was launched with. -/
theorem b1_kept (c : Dev nD) : W3 m ρ c (Proc.devRef .tc main_arg3) = m ((c : Thread nD τ).loc main_arg3) :=
  (W3_of_ne m ρ c main_arg3 (by decide)).trans ((W2_of_ne m ρ c main_arg3 (by decide)).trans (by
    show StableHlo.after hostOps0 (W0 m ρ c) (Proc.devRef .tc main_arg3) = _
    after_results))
theorem w2_kept (c : Dev nD) : W3 m ρ c (Proc.devRef .tc main_arg4) = m ((c : Thread nD τ).loc main_arg4) :=
  (W3_of_ne m ρ c main_arg4 (by decide)).trans ((W2_of_ne m ρ c main_arg4 (by decide)).trans (by
    show StableHlo.after hostOps0 (W0 m ρ c) (Proc.devRef .tc main_arg4) = _
    after_results))
theorem b2_kept (c : Dev nD) : W3 m ρ c (Proc.devRef .tc main_arg5) = m ((c : Thread nD τ).loc main_arg5) :=
  (W3_of_ne m ρ c main_arg5 (by decide)).trans ((W2_of_ne m ρ c main_arg5 (by decide)).trans (by
    show StableHlo.after hostOps0 (W0 m ρ c) (Proc.devRef .tc main_arg5) = _
    after_results))

/-! ## The second host stretch: the scorer's operands as layout operations of the earlier buffers -/

theorem hkT_entry2 (c : Dev nD) :
    V4 m ρ c main_v4 = transpose S2x32x1024 [0, 2, 1] (W3 m ρ c (Proc.devRef .tc main_v2)) transposes_S2x1024x32_S2x32x1024_0_2_1 := by
  show StableHlo.after hostOps2 (W3 m ρ c) (Proc.devRef .tc main_v4) = _
  after_results

theorem hq_entry2 (c : Dev nD) : V4 m ρ c main_v3 = W3 m ρ c (Proc.devRef .tc main_v3) := by
  show StableHlo.after hostOps2 (W3 m ρ c) (Proc.devRef .tc main_v3) = _
  after_results

theorem b1_entry2 (c : Dev nD) :
    V4 m ρ c main_v5 = shapeCast S1x32 (W3 m ρ c (Proc.devRef .tc main_arg3)) shapeCasts_S32_S1x32 := by
  show StableHlo.after hostOps2 (W3 m ρ c) (Proc.devRef .tc main_v5) = _
  after_results
  rfl

theorem w2_entry2 (c : Dev nD) :
    V4 m ρ c main_v6 = transpose S1x32 [1, 0] (W3 m ρ c (Proc.devRef .tc main_arg4)) transposes_S32x1_S1x32_1_0 := by
  show StableHlo.after hostOps2 (W3 m ρ c) (Proc.devRef .tc main_v6) = _
  after_results

theorem b2_entry2 (c : Dev nD) :
    V4 m ρ c main_v7 = shapeCast S1x1 (W3 m ρ c (Proc.devRef .tc main_arg5)) shapeCasts_S1_S1x1 := by
  show StableHlo.after hostOps2 (W3 m ρ c) (Proc.devRef .tc main_v7) = _
  after_results
  rfl

/-! ## The result -/

/-- The kernel's result array is `logits` of the six arguments, given what each launch's output array holds. -/
theorem result_value
    (hkeys : ∀ (V : (c : Dev nD) → (b : Ref sig .tc) → Buf (Elt Ideal) ((c : Thread nD τ).loc b)) (c : Dev nD),
      (dat0 (F := Ideal) V c).arrAt 2 cfg0.N = Cert.Spec.proj (V c main_arg0) (V c main_v0))
    (hqueries : ∀ (V : (c : Dev nD) → (b : Ref sig .tc) → Buf (Elt Ideal) ((c : Thread nD τ).loc b)) (c : Dev nD),
      (dat1 (F := Ideal) V c).arrAt 2 cfg1.N = Cert.Spec.proj (V c main_arg1) (V c main_v1))
    (hscore : ∀ (V : (c : Dev nD) → (b : Ref sig .tc) → Buf (Elt Ideal) ((c : Thread nD τ).loc b)) (c : Dev nD),
      (dat2 (F := Ideal) V c).arrAt 5 cfg2.N
        = Cert.Spec.score (V c main_v4) (V c main_v3) (V c main_v5) (V c main_v6) (V c main_v7))
    (c : Dev nD) :
    W5 m ρ c (Proc.devRef .tc main_v8)
      = Cert.Spec.logits (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- hk, after the first two launches
  have hk : W3 m ρ c (Proc.devRef .tc main_v2)
      = Cert.Spec.proj (m ((c : Thread nD τ).loc main_arg0))
          (extractStridedSlice S512x32 ![0, 0] (m ((c : Thread nD τ).loc main_arg2)) slices_S1024x32_S512x32_0_0) :=
    ((W3_of_ne m ρ c main_v2 (by decide)).trans (W2_arr m ρ c 2)).trans
      ((hkeys (V1 m ρ) c).trans (congrArg₂ Cert.Spec.proj (keys_entry0 m ρ c) (upper_entry0 m ρ c)))
  -- hq, after the second launch
  have hq : W3 m ρ c (Proc.devRef .tc main_v3)
      = Cert.Spec.proj (m ((c : Thread nD τ).loc main_arg1))
          (extractStridedSlice S512x32 ![512, 0] (m ((c : Thread nD τ).loc main_arg2)) slices_S1024x32_S512x32_512_0) :=
    (W3_arr m ρ c 2).trans
      ((hqueries (V2 m ρ) c).trans (congrArg₂ Cert.Spec.proj (queries_entry1 m ρ c) (lower_entry1 m ρ c)))
  refine (W5_arr m ρ c 5).trans ((hscore (V4 m ρ) c).trans ?_)
  rw [hkT_entry2, hq_entry2, b1_entry2, w2_entry2, b2_entry2, hk, hq, b1_kept, w2_kept, b2_kept]
  exact Cert.Spec.score_operands _ _ _ _ _ _ _ _ _ _ _ _

end Cert.KernelIdeal.Chain

end
-- ==== Proof.ProjValue.lean ====
/-
  The two projection regions, read as arrays.

  Each region walks a grid of two points, one per batch.  At point t the body takes batch t of a
  [2, 1024, 512] operand as a [1, 1024, 512] block, the whole stored 512 x 32 weight, multiplies them
  into a zero accumulator, and leaves the [1, 1024, 32] product as batch t of a [2, 1024, 32] array.
  Over the extended reals the narrowing before the product is the identity and the product is a plain
  sum over the shared axis, so after the run the output array is the projection

      out[b, n, h] = Σ_d operand[b, n, d] · weight[d, h].

  The steps: the product at one entry; the body's block as that product; the block index maps over the
  grid; what a point writes back, as a block of the projection; the blocks cover the array.
-/
import proofs.«178992_j6597069767500_1_alg».proof.Proof.Gen.KernelIdeal.Frame
import proofs.«178992_j6597069767500_1_alg».proof.Proof.Spec
import Idealize.ShloMosaic.Lib.Pipeline.Value
import Idealize.ShloMosaic.Lib.ValueIdx
import Idealize.ShloMosaic.PureOps.Ideal.Laws

noncomputable section

namespace Cert.KernelIdeal.ProjValue

open Idealize.ShloMosaic Idealize.ShloMosaic.TcCoe Idealize.SL.Sem
open Cert.KernelIdeal Cert.KernelIdeal.Gen
open Idealize.ShloMosaic.ValueIdx

/-! ## The product at one entry -/

/-- Left operand's row axis is a free axis of the contraction: it follows the result's row. -/
theorem lhs_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
/-- Left operand's column axis is the contracted one. -/
theorem lhs_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
/-- Right operand's row axis is the contracted one. -/
theorem rhs_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
/-- Right operand's column axis is free: it follows the result's column. -/
theorem rhs_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- The 1024x512 by 512x32 product into the zero accumulator, at row n and column h, is the sum over the shared axis. -/
theorem matmul_at {φ₁ φ₂ : FTy} (a : FVec Ideal S1024x512 φ₁) (w : FVec Ideal S512x32 φ₂) (n : Fin 1024) (h : Fin 32) :
    FloatOps.matmul dot_S1024x512_S512x32_S1024x32_1_0_0_1_n_n none a w (constant (F := Ideal) S1024x32 .f32 0x00000000#32) (ix2 n h)
      = ∑ d : Fin 512, a (ix2 n d) * w (ix2 d h) := by
  rw [Ideal.matmul_constant_zero_apply, ← Equiv.sum_comp (ValueIdx.contrEquiv1 dot_S1024x512_S512x32_S1024x32_1_0_0_1_n_n 512 rfl rfl).symm]
  refine Finset.sum_congr rfl fun k _ => ?_
  have hk := ValueIdx.contrEquiv1_symm_val dot_S1024x512_S512x32_S1024x32_1_0_0_1_n_n 512 rfl rfl k
  have el : dot_S1024x512_S512x32_S1024x32_1_0_0_1_n_n.lhsIdx (ix2 n h) ((ValueIdx.contrEquiv1 dot_S1024x512_S512x32_S1024x32_1_0_0_1_n_n 512 rfl rfl).symm k) = ix2 n k := funext fun a => Fin.ext (by
    match a with
    | ⟨0, _⟩ => exact lhs_0 _ _
    | ⟨1, _⟩ => exact (lhs_1 _ _).trans hk)
  have er : dot_S1024x512_S512x32_S1024x32_1_0_0_1_n_n.rhsIdx (ix2 n h) ((ValueIdx.contrEquiv1 dot_S1024x512_S512x32_S1024x32_1_0_0_1_n_n 512 rfl rfl).symm k) = ix2 k h := funext fun a => Fin.ext (by
    match a with
    | ⟨0, _⟩ => exact (rhs_0 _ _).trans hk
    | ⟨1, _⟩ => exact rhs_1 _ _)
  rw [el, er]

/-- The body's payload at (0, n, h): dropping the unit axis of the operand block, narrowing (the
    identity here), multiplying into zero and putting the unit axis back leaves the sum over d of
    operand (0, n, d) times weight (d, h). -/
theorem k0_pay1_at (x0 : Vec Ideal S1x1024x512 .f32) (x1 : Vec Ideal S512x32 .f32) (n : Fin 1024) (h : Fin 32) :
    k0_pay1 (F := Ideal) x0 x1 (ix3 0 n h) = ∑ d : Fin 512, x0 (ix3 0 n d) * x1 (ix2 d h) := by
  unfold k0_pay1
  refine (shapeCast_addUnit_apply ![1024, 32] _ _ (ix3 0 n h)).trans ?_
  have e2 : (fun a : Fin 2 => (ix3 (0 : Fin 1) n h) a.succ) = ix2 n h := funext fun a => by
    match a with
    | ⟨0, _⟩ => rfl
    | ⟨1, _⟩ => rfl
  rw [e2]
  refine (matmul_at _ _ n h).trans ?_
  refine Finset.sum_congr rfl fun d _ => ?_
  rw [truncf_apply, truncf_apply, shapeCast_self]
  refine congrArg (· * x1 (ix2 d h)) ?_
  refine (shapeCast_dropUnit_apply ![1024, 512] x0 _ (ix2 n d)).trans ?_
  refine congrArg x0 ?_
  funext a
  match a with
  | ⟨0, _⟩ => rfl
  | ⟨1, _⟩ => rfl
  | ⟨2, _⟩ => rfl

/-- When the operand block is batch b of X and the weight block is all of W, the payload at an entry
    (0, n, h) of the block is the projection of X against W at (b, n, h). -/
theorem pay_is_proj (x0 : Vec Ideal S1x1024x512 .f32) (x1 : Vec Ideal S512x32 .f32)
    (X : Cert.Spec.SAct.Idx → EReal) (W : Cert.Spec.SHalf.Idx → EReal) (b : Fin 2)
    (hx0 : ∀ (n : Fin 1024) (d : Fin 512), x0 (ix3 0 n d) = X (ix3 b n d))
    (hx1 : ∀ (d : Fin 512) (h : Fin 32), x1 (ix2 d h) = W (ix2 d h))
    (j : S1x1024x32.Idx) (i : S2x1024x32.Idx)
    (h0 : (i 0).val = b.val) (h1 : (i 1).val = (j 1).val) (h2 : (i 2).val = (j 2).val) :
    k0_pay1 (F := Ideal) x0 x1 j = Cert.Spec.proj X W i := by
  obtain ⟨n, h, rfl⟩ : ∃ (n : Fin 1024) (h : Fin 32), j = ix3 0 n h :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  rw [k0_pay1_at]
  unfold Cert.Spec.proj Cert.Spec.projAt
  have e0 : (⟨(i 0).val, (i 0).isLt⟩ : Fin 2) = b := Fin.ext h0
  have e1 : (⟨(i 1).val, (i 1).isLt⟩ : Fin 1024) = n := Fin.ext h1
  have e2 : (⟨(i 2).val, (i 2).isLt⟩ : Fin 32) = h := Fin.ext h2
  rw [e0, e1, e2]
  exact Finset.sum_congr rfl fun d _ => by rw [hx0, hx1]

/-! ## The body's block is the payload -/

theorem zero3 : (![0, 0, 0] : Fin 3 → Nat) = fun _ => 0 := funext fun a => by fin_cases a <;> rfl
theorem zero2 : (![0, 0] : Fin 2 → Nat) = fun _ => 0 := funext fun a => by fin_cases a <;> rfl

/-- First region: the one store fills the whole output block and the two loads read whole blocks, so what
    the body leaves is the payload of the two input blocks. -/
theorem out0_2_eq (x0 : Vec Ideal S1x1024x512 .f32) (x1 : Vec Ideal S512x32 .f32) :
    out0_2 (F := Ideal) x0 x1 = k0_pay1 (F := Ideal) x0 x1 := by
  unfold out0_2
  rw [View.canon_unit_zero zero3]
  rw [View.ld_unit_zero (S := S1x1024x512) zero3, View.ld_unit_zero (S := S512x32) zero2]

/-- Second region: the same, and its payload is the same term as the first region's. -/
theorem out1_2_eq (x0 : Vec Ideal S1x1024x512 .f32) (x1 : Vec Ideal S512x32 .f32) :
    out1_2 (F := Ideal) x0 x1 = k0_pay1 (F := Ideal) x0 x1 := by
  unfold out1_2
  rw [View.canon_unit_zero zero3]
  rw [View.ld_unit_zero (S := S1x1024x512) zero3, View.ld_unit_zero (S := S512x32) zero2]
  rfl

/-! ## The first region: the keys' operand against its stored weight -/

/-- The block index maps over the grid: the operand's and the output's blocks move along the batch axis
    with the point, and the weight's block stays at the origin. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the projection of the operand against the stored weight, both
    as the region finds them. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Spec.proj (V c main_arg0) (V c main_v0)) := by
  show (cfg0.win 2).cut (grid0.coords t) ((dat0 V c).after 2 t) = _
  rw [after0_2, out0_2_eq]
  obtain ⟨a0, a1, a2, w0, w1, o0, o1, o2⟩ := idx0 t
  have ht : t.val < 2 := lt_of_lt_of_eq (t.isLt : t.val < grid0.N) N_0
  funext j
  show k0_pay1 (F := Ideal) (iblk0 V c 0 t) (iblk0 V c 1 t) j = Cert.Spec.proj (V c main_arg0) (V c main_v0) (((cfg0.win 2).blk t).view.emb j)
  refine pay_is_proj _ _ _ _ ⟨t.val, ht⟩ ?_ ?_ j _ ?_ ?_ ?_
  · -- the operand block's entry (0, n, d) is the array's entry (t, n, d)
    intro n d
    show V c main_arg0 (((cfg0.win 0).blk t).view.emb (ix3 0 n d)) = V c main_arg0 (ix3 ⟨t.val, ht⟩ n d)
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 1024 + 1 * n.val = n.val; omega
    | ⟨2, _⟩ => show win0_0.index t (2 : Fin 3) * 512 + 1 * d.val = d.val; omega
  · -- the weight block is the whole weight
    intro d h
    show V c main_v0 (((cfg0.win 1).blk t).view.emb (ix2 d h)) = V c main_v0 (ix2 d h)
    refine congrArg (V c main_v0) (funext fun a => Fin.ext ?_)
    match a with
    | ⟨0, _⟩ => show win0_1.index t (0 : Fin 2) * 512 + 1 * d.val = d.val; omega
    | ⟨1, _⟩ => show win0_1.index t (1 : Fin 2) * 32 + 1 * h.val = h.val; omega
  · -- the output block's entry j sits at (t, j 1, j 2) of the array
    show win0_2.index t (0 : Fin 3) * 1 + 1 * (j 0).val = t.val
    have hj : (j 0).val < 1 := (j 0).isLt
    omega
  · show win0_2.index t (1 : Fin 3) * 1024 + 1 * (j 1).val = (j 1).val
    omega
  · show win0_2.index t (2 : Fin 3) * 32 + 1 * (j 2).val = (j 2).val
    omega

/-- An index of the [2, 1024, 32] array lies in point t's block iff each coordinate lies in the block's
    range on its axis. -/
theorem mem_blk0 (t : Fin cfg0.N) (i : S2x1024x32.Idx) :
    i ∈ ((cfg0.win 2).blk t).view.set ↔ ∀ a : Fin 3, win0_2.index t a * S1x1024x32.size a ≤ (i a).val ∧ (i a).val < win0_2.index t a * S1x1024x32.size a + S1x1024x32.size a := by
  show i ∈ ((View.whole main_v2).slice (win0_2.rect t)).set ↔ _
  rw [View.set_slice_whole, Rect.mem_set_unit]
  exact Iff.rfl

/-- Batch b of the output is the block of grid point b, and every point writes its block back: the
    blocks cover the array. -/
theorem cover0 (i : S2x1024x32.Idx) :
    ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 32 := (i 2).isLt
  obtain ⟨t, ht⟩ : ∃ t : Fin cfg0.N, t.val = (i 0).val := ⟨⟨(i 0).val, lt_of_lt_of_eq hi0 N_0.symm⟩, rfl⟩
  obtain ⟨-, -, -, -, -, o0, o1, o2⟩ := idx0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 32 ≤ (i 2).val ∧ (i 2).val < win0_2.index t (2 : Fin 3) * 32 + 32; omega

/-- After the first region's run its [2, 1024, 32] output array holds the projection of its [2, 1024, 512]
    operand against its stored 512 x 32 weight. -/
theorem final0 (V : (c : Dev nD) → (b : Ref sig .tc) → Buf (Elt Ideal) ((c : Thread nD τ).loc b)) (c : Dev nD) :
    (dat0 (F := Ideal) V c).arrAt 2 cfg0.N = Cert.Spec.proj (V c main_arg0) (V c main_v0) :=
  (dat0 (F := Ideal) V c).arrAt_eq_of_cover 2 _ (fun t _ => flushed0_eq V c t) cover0

/-! ## The second region: the queries' operand against its stored weight -/

/-- The block index maps over the grid: the operand's and the output's blocks move along the batch axis
    with the point, and the weight's block stays at the origin. -/
theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- What point t writes back is block t of the projection of the operand against the stored weight, both
    as the region finds them. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.proj (V c main_arg1) (V c main_v1)) := by
  show (cfg1.win 2).cut (grid1.coords t) ((dat1 V c).after 2 t) = _
  rw [after1_2, out1_2_eq]
  obtain ⟨a0, a1, a2, w0, w1, o0, o1, o2⟩ := idx1 t
  have ht : t.val < 2 := lt_of_lt_of_eq (t.isLt : t.val < grid1.N) N_1
  funext j
  show k0_pay1 (F := Ideal) (iblk1 V c 0 t) (iblk1 V c 1 t) j = Cert.Spec.proj (V c main_arg1) (V c main_v1) (((cfg1.win 2).blk t).view.emb j)
  refine pay_is_proj _ _ _ _ ⟨t.val, ht⟩ ?_ ?_ j _ ?_ ?_ ?_
  · -- the operand block's entry (0, n, d) is the array's entry (t, n, d)
    intro n d
    show V c main_arg1 (((cfg1.win 0).blk t).view.emb (ix3 0 n d)) = V c main_arg1 (ix3 ⟨t.val, ht⟩ n d)
    refine congrArg (V c main_arg1) (funext fun a => Fin.ext ?_)
    match a with
    | ⟨0, _⟩ => show win1_0.index t (0 : Fin 3) * 1 + 1 * 0 = t.val; omega
    | ⟨1, _⟩ => show win1_0.index t (1 : Fin 3) * 1024 + 1 * n.val = n.val; omega
    | ⟨2, _⟩ => show win1_0.index t (2 : Fin 3) * 512 + 1 * d.val = d.val; omega
  · -- the weight block is the whole weight
    intro d h
    show V c main_v1 (((cfg1.win 1).blk t).view.emb (ix2 d h)) = V c main_v1 (ix2 d h)
    refine congrArg (V c main_v1) (funext fun a => Fin.ext ?_)
    match a with
    | ⟨0, _⟩ => show win1_1.index t (0 : Fin 2) * 512 + 1 * d.val = d.val; omega
    | ⟨1, _⟩ => show win1_1.index t (1 : Fin 2) * 32 + 1 * h.val = h.val; omega
  · -- the output block's entry j sits at (t, j 1, j 2) of the array
    show win1_2.index t (0 : Fin 3) * 1 + 1 * (j 0).val = t.val
    have hj : (j 0).val < 1 := (j 0).isLt
    omega
  · show win1_2.index t (1 : Fin 3) * 1024 + 1 * (j 1).val = (j 1).val
    omega
  · show win1_2.index t (2 : Fin 3) * 32 + 1 * (j 2).val = (j 2).val
    omega

/-- An index of the [2, 1024, 32] array lies in point t's block iff each coordinate lies in the block's
    range on its axis. -/
theorem mem_blk1 (t : Fin cfg1.N) (i : S2x1024x32.Idx) :
    i ∈ ((cfg1.win 2).blk t).view.set ↔ ∀ a : Fin 3, win1_2.index t a * S1x1024x32.size a ≤ (i a).val ∧ (i a).val < win1_2.index t a * S1x1024x32.size a + S1x1024x32.size a := by
  show i ∈ ((View.whole main_v3).slice (win1_2.rect t)).set ↔ _
  rw [View.set_slice_whole, Rect.mem_set_unit]
  exact Iff.rfl

/-- Batch b of the output is the block of grid point b, and every point writes its block back: the
    blocks cover the array. -/
theorem cover1 (i : S2x1024x32.Idx) :
    ∃ t : Fin cfg1.N, (cfg1.win 2).flush t = true ∧ i ∈ ((cfg1.win 2).blk t).view.set := by
  have hi0 : (i 0).val < 2 := (i 0).isLt
  have hi1 : (i 1).val < 1024 := (i 1).isLt
  have hi2 : (i 2).val < 32 := (i 2).isLt
  obtain ⟨t, ht⟩ : ∃ t : Fin cfg1.N, t.val = (i 0).val := ⟨⟨(i 0).val, lt_of_lt_of_eq hi0 N_1.symm⟩, rfl⟩
  obtain ⟨-, -, -, -, -, o0, o1, o2⟩ := idx1 t
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 32 ≤ (i 2).val ∧ (i 2).val < win1_2.index t (2 : Fin 3) * 32 + 32; omega

/-- After the second region's run its [2, 1024, 32] output array holds the projection of its [2, 1024, 512]
    operand against its stored 512 x 32 weight. -/
theorem final1 (V : (c : Dev nD) → (b : Ref sig .tc) → Buf (Elt Ideal) ((c : Thread nD τ).loc b)) (c : Dev nD) :
    (dat1 (F := Ideal) V c).arrAt 2 cfg1.N = Cert.Spec.proj (V c main_arg1) (V c main_v1) :=
  (dat1 (F := Ideal) V c).arrAt_eq_of_cover 2 _ (fun t _ => flushed1_eq V c t) cover1

end Cert.KernelIdeal.ProjValue

end
-- ==== Proof.ScoreValue.lean ====
/-
  The scorer region of the additive-attention kernel: after its run, the [2, 1024, 1024] output array holds

    logits[b, q, k] = (Σ_h tanh((hq[b, q, h] + hkT[b, h, k]) + b1[0, h]) · w2[0, h]) + b2[0, 0]

  of the five operand arrays as the region finds them.  The road: the body's arithmetic read at one index of its
  output block (each layout operation read at an index, the sum over the hidden axis as a sum over Fin 32); the
  output window's buffer after the body is that arithmetic of the five input blocks; each input block's entry is an
  entry of its array, at block index × block size + the coordinate inside the block; so what a grid point writes
  back is its block of the scorer; the output blocks [1, 64, 1024] at (b, q / 64, 0) cover the array; hence the
  array is the scorer everywhere.
-/
import proofs.«178992_j6597069767500_1_alg».proof.Proof.Gen.KernelIdeal.Frame
import proofs.«178992_j6597069767500_1_alg».proof.Proof.Spec
import Idealize.ShloMosaic.Lib.Pipeline.Value
import Idealize.ShloMosaic.Lib.ValueIdx
import Idealize.ShloMosaic.PureOps.Ideal.Laws

noncomputable section

namespace Cert.KernelIdeal.ScoreValue

open Idealize.ShloMosaic Idealize.ShloMosaic.TcCoe Idealize.SL.Sem
open Idealize.ShloMosaic.ValueIdx
open Cert.KernelIdeal Cert.KernelIdeal.Gen

/-! ## Layout operations of the scorer body, read at an index -/

/-- The result [64,1024] stored as a block [1,64,1024]: entry (0, r, k) is entry (r, k). -/
theorem cast_out (v : FVec Ideal S64x1024 .f32) (r : Fin 64) (k : Fin 1024) :
    shapeCast S1x64x1024 v shapeCasts_S64x1024_S1x64x1024 (ix3 0 r k) = v (ix2 r k) := by
  refine shapeCast_apply v _ (ix3 0 r k) (ix2 r k) ?_
  rw [Shape.rowMajor_val_two, Shape.rowMajor_val_three]
  show r.val * 1024 + k.val = ((0 : Fin 1).val * 64 + r.val) * 1024 + k.val
  simp

/-- The query block [1,64,32] viewed [64,32], then as a column [64,32,1], then spread along the key axis:
    entry (r, h, k) is the block's entry (0, r, h), whatever k. -/
theorem spread_query (x1 : Vec Ideal S1x64x32 .f32) (r : Fin 64) (h : Fin 32) (k : Fin 1024) :
    broadcastTo S64x32x1024
        (shapeCast S64x32x1 (shapeCast S64x32 x1 shapeCasts_S1x64x32_S64x32) shapeCasts_S64x32_S64x32x1)
        broadcasts_S64x32x1_S64x32x1024 (ix3 r h k) = x1 (ix3 0 r h) := by
  refine (broadcastTo_apply _ _ (ix3 r h k) (ix3 r h (0 : Fin 1)) ?_).trans ?_
  · intro a
    match a with
    | ⟨0, _⟩ => rfl
    | ⟨1, _⟩ => rfl
    | ⟨2, _⟩ => rfl
  refine (shapeCast_apply _ _ (ix3 r h (0 : Fin 1)) (ix2 r h) ?_).trans ?_
  · rw [Shape.rowMajor_val_two, Shape.rowMajor_val_three]
    show r.val * 32 + h.val = (r.val * 32 + h.val) * 1 + (0 : Fin 1).val
    simp
  refine shapeCast_apply _ _ (ix2 r h) (ix3 (0 : Fin 1) r h) ?_
  rw [Shape.rowMajor_val_two, Shape.rowMajor_val_three]
  show ((0 : Fin 1).val * 64 + r.val) * 32 + h.val = r.val * 32 + h.val
  simp

/-- The key block [1,32,1024] viewed [32,1024] and back, then spread along the query rows:
    entry (r, h, k) is the block's entry (0, h, k), whatever r. -/
theorem spread_key (x0 : Vec Ideal S1x32x1024 .f32) (r : Fin 64) (h : Fin 32) (k : Fin 1024) :
    broadcastTo S64x32x1024
        (shapeCast S1x32x1024 (shapeCast S32x1024 x0 shapeCasts_S1x32x1024_S32x1024) shapeCasts_S32x1024_S1x32x1024)
        broadcasts_S1x32x1024_S64x32x1024 (ix3 r h k) = x0 (ix3 0 h k) := by
  rw [shapeCast_shapeCast]
  refine broadcastTo_apply _ _ (ix3 r h k) (ix3 (0 : Fin 1) h k) ?_
  intro a
  match a with
  | ⟨0, _⟩ => rfl
  | ⟨1, _⟩ => rfl
  | ⟨2, _⟩ => rfl

/-- A row [1,32] viewed [32], then as [1,32,1], then spread over query rows and keys:
    entry (r, h, k) is the row's entry (0, h). -/
theorem spread_row (x : Vec Ideal S1x32 .f32) (r : Fin 64) (h : Fin 32) (k : Fin 1024) :
    broadcastTo S64x32x1024
        (shapeCast S1x32x1 (shapeCast S32 x shapeCasts_S1x32_S32) shapeCasts_S32_S1x32x1)
        broadcasts_S1x32x1_S64x32x1024 (ix3 r h k) = x (ix2 0 h) := by
  refine (broadcastTo_apply _ _ (ix3 r h k) (ix3 (0 : Fin 1) h (0 : Fin 1)) ?_).trans ?_
  · intro a
    match a with
    | ⟨0, _⟩ => rfl
    | ⟨1, _⟩ => rfl
    | ⟨2, _⟩ => rfl
  refine (shapeCast_apply _ _ (ix3 (0 : Fin 1) h (0 : Fin 1)) (ix1 h) ?_).trans ?_
  · rw [Shape.rowMajor_val_one, Shape.rowMajor_val_three]
    show h.val = ((0 : Fin 1).val * 32 + h.val) * 1 + (0 : Fin 1).val
    simp
  refine shapeCast_apply _ _ (ix1 h) (ix2 (0 : Fin 1) h) ?_
  rw [Shape.rowMajor_val_one, Shape.rowMajor_val_two]
  show (0 : Fin 1).val * 32 + h.val = h.val
  simp

/-- The sum over the hidden axis of a [64,32,1024] value, at (r, k), is the sum over h of its entries (r, h, k). -/
theorem hidden_sum (src : FVec Ideal S64x32x1024 .f32) (r : Fin 64) (k : Fin 1024) :
    multiReduction (F := Ideal) .add [1] S64x1024 src 0x00000000#32 reduces_S64x32x1024_S64x1024 (.inl rfl) rfl (ix2 r k)
      = ∑ h : Fin 32, src (ix3 r h k) := by
  refine (Ideal.multiReduction_add_single src 0x00000000#32 reduces_S64x32x1024_S64x1024 (.inl rfl) rfl (ix2 r k)).trans ?_
  refine Finset.sum_congr rfl fun h _ => congrArg src ?_
  funext c
  apply Fin.ext
  match c with
  | ⟨0, _⟩ => rfl
  | ⟨1, _⟩ => rfl
  | ⟨2, _⟩ => rfl

/-! ## The scorer body's arithmetic at an index -/

/-- What the body stores at (0, r, k) of its output block, from its five loaded blocks: the sum over the hidden
    axis of tanh(query + key + bias) weighted by the second layer's row, plus the output bias. -/
theorem scorer_payload_apply (x0 : Vec Ideal S1x32x1024 .f32) (x1 : Vec Ideal S1x64x32 .f32)
    (x2 x3 : Vec Ideal S1x32 .f32) (x4 : Vec Ideal S1x1 .f32) (r : Fin 64) (k : Fin 1024) :
    k2_pay1 x0 x1 x2 x3 x4 (ix3 0 r k)
      = (∑ h : Fin 32, Ideal.tanh ((x1 (ix3 0 r h) + x0 (ix3 0 h k)) + x2 (ix2 0 h)) * x3 (ix2 0 h)) + x4 (ix2 0 0) := by
  unfold k2_pay1
  refine (cast_out _ r k).trans ?_
  refine (addf_apply _ _ (ix2 r k)).trans ?_
  refine congrArg₂ (· + ·) ?_ ?_
  · refine (hidden_sum _ r k).trans ?_
    refine Finset.sum_congr rfl fun h _ => ?_
    refine (mulf_apply _ _ (ix3 r h k)).trans ?_
    refine congrArg₂ (· * ·) ?_ (spread_row x3 r h k)
    refine congrArg Ideal.tanh ?_
    refine (addf_apply _ _ (ix3 r h k)).trans ?_
    refine congrArg₂ (· + ·) ?_ (spread_row x2 r h k)
    refine (addf_apply _ _ (ix3 r h k)).trans ?_
    exact congrArg₂ (· + ·) (spread_query x1 r h k) (spread_key x0 r h k)
  · exact congrArg x4 (funext fun a => Fin.ext (by match a with | ⟨0, _⟩ => rfl | ⟨1, _⟩ => rfl))

/-! ## The body's result in the output window is its payload -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- One store through the whole output buffer, of the payload of five whole-buffer loads. -/
theorem out_is_payload (x0 : Vec Ideal S1x32x1024 .f32) (x1 : Vec Ideal S1x64x32 .f32)
    (x2 x3 : Vec Ideal S1x32 .f32) (x4 : Vec Ideal S1x1 .f32) :
    out2_5 x0 x1 x2 x3 x4 = k2_pay1 x0 x1 x2 x3 x4 := by
  unfold out2_5
  rw [View.canon_unit_zero zeros3]
  simp only [View.ld_unit_zero (S := S1x32x1024) zeros3, View.ld_unit_zero (S := S1x64x32) zeros3,
    View.ld_unit_zero (S := S1x32) zeros2, View.ld_unit_zero (S := S1x1) zeros2]

/-! ## The index maps over the grid (2, 16) -/

/-- At every grid point: the key window follows the output's batch index, the query window follows the output's
    batch and row-block indices, the three small windows stay at their only block, and the output's block index
    is (batch ≤ 1, row block ≤ 15, 0). -/
theorem index_facts : ∀ t : Fin cfg2.N,
    win2_0.index t (0 : Fin 3) = win2_5.index t (0 : Fin 3) ∧ win2_0.index t (1 : Fin 3) = 0 ∧ win2_0.index t (2 : Fin 3) = 0
    ∧ win2_1.index t (0 : Fin 3) = win2_5.index t (0 : Fin 3) ∧ win2_1.index t (1 : Fin 3) = win2_5.index t (1 : Fin 3)
    ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 1 ∧ win2_5.index t (1 : Fin 3) ≤ 15 ∧ win2_5.index t (2 : Fin 3) = 0 :=
  (by decide +kernel : ∀ t : Fin grid2.N, _)

/-- Every (batch, row block) is some grid point's output block. -/
theorem index_onto : ∀ (b : Fin 2) (qi : Fin 16), ∃ t : Fin cfg2.N, win2_5.index t = ![b.val, qi.val, 0] :=
  (by decide +kernel : ∀ (b : Fin 2) (qi : Fin 16), ∃ t : Fin grid2.N, win2_5.index t = ![b.val, qi.val, 0])

section Blocks

variable (V : (c : Dev nD) → (b : Ref sig .tc) → Buf (Elt Ideal) ((c : Thread nD τ).loc b)) (c : Dev nD)

/-! ## The input blocks at a point, as entries of their arrays -/

/-- The key block at point t: entry (0, h, k) is the array's entry (batch of t, h, k). -/
theorem key_block_apply (t : Fin cfg2.N) (h : Fin 32) (k : Fin 1024) (i : Cert.Spec.SHidT.Idx)
    (e0 : (i 0).val = win2_5.index t (0 : Fin 3)) (e1 : (i 1).val = h.val) (e2 : (i 2).val = k.val) :
    (iblk2 V c 0 t : Vec Ideal S1x32x1024 .f32) (ix3 0 h k) = (V c main_v4 : Cert.Spec.SHidT.Idx → EReal) i := by
  obtain ⟨f0, f1, f2, -⟩ := index_facts t
  show (V c main_v4 : Cert.Spec.SHidT.Idx → EReal) (((cfg2.win 0).blk t).view.emb (ix3 0 h k)) = _
  refine congrArg _ (funext fun a => Fin.ext ?_)
  match a with
  | ⟨0, _⟩ => show win2_0.index t (0 : Fin 3) * 1 + 1 * 0 = (i 0).val; omega
  | ⟨1, _⟩ => show win2_0.index t (1 : Fin 3) * 32 + 1 * h.val = (i 1).val; omega
  | ⟨2, _⟩ => show win2_0.index t (2 : Fin 3) * 1024 + 1 * k.val = (i 2).val; omega

/-- The query block at point t: entry (0, r, h) is the array's entry (batch of t, 64 · row block of t + r, h). -/
theorem query_block_apply (t : Fin cfg2.N) (r : Fin 64) (h : Fin 32) (i : Cert.Spec.SHid.Idx)
    (e0 : (i 0).val = win2_5.index t (0 : Fin 3)) (e1 : (i 1).val = win2_5.index t (1 : Fin 3) * 64 + r.val)
    (e2 : (i 2).val = h.val) :
    (iblk2 V c 1 t : Vec Ideal S1x64x32 .f32) (ix3 0 r h) = (V c main_v3 : Cert.Spec.SHid.Idx → EReal) i := by
  obtain ⟨-, -, -, f0, f1, f2, -⟩ := index_facts t
  show (V c main_v3 : Cert.Spec.SHid.Idx → EReal) (((cfg2.win 1).blk t).view.emb (ix3 0 r h)) = _
  refine congrArg _ (funext fun a => Fin.ext ?_)
  match a with
  | ⟨0, _⟩ => show win2_1.index t (0 : Fin 3) * 1 + 1 * 0 = (i 0).val; omega
  | ⟨1, _⟩ => show win2_1.index t (1 : Fin 3) * 64 + 1 * r.val = (i 1).val; omega
  | ⟨2, _⟩ => show win2_1.index t (2 : Fin 3) * 32 + 1 * h.val = (i 2).val; omega

/-- The first-layer bias row at any point is the whole row array. -/
theorem bias_block_apply (t : Fin cfg2.N) (h : Fin 32) :
    (iblk2 V c 2 t : Vec Ideal S1x32 .f32) (ix2 0 h) = (V c main_v5 : Cert.Spec.SRow.Idx → EReal) (ix2 0 h) := by
  obtain ⟨-, -, -, -, -, -, f0, f1, -⟩ := index_facts t
  show (V c main_v5 : Cert.Spec.SRow.Idx → EReal) (((cfg2.win 2).blk t).view.emb (ix2 0 h)) = _
  refine congrArg _ (funext fun a => Fin.ext ?_)
  match a with
  | ⟨0, _⟩ => show win2_2.index t (0 : Fin 2) * 1 + 1 * 0 = 0; omega
  | ⟨1, _⟩ => show win2_2.index t (1 : Fin 2) * 32 + 1 * h.val = h.val; omega

/-- The second-layer weight row at any point is the whole row array. -/
theorem weight_block_apply (t : Fin cfg2.N) (h : Fin 32) :
    (iblk2 V c 3 t : Vec Ideal S1x32 .f32) (ix2 0 h) = (V c main_v6 : Cert.Spec.SRow.Idx → EReal) (ix2 0 h) := by
  obtain ⟨-, -, -, -, -, -, -, -, f0, f1, -⟩ := index_facts t
  show (V c main_v6 : Cert.Spec.SRow.Idx → EReal) (((cfg2.win 3).blk t).view.emb (ix2 0 h)) = _
  refine congrArg _ (funext fun a => Fin.ext ?_)
  match a with
  | ⟨0, _⟩ => show win2_3.index t (0 : Fin 2) * 1 + 1 * 0 = 0; omega
  | ⟨1, _⟩ => show win2_3.index t (1 : Fin 2) * 32 + 1 * h.val = h.val; omega

/-- The output bias at any point is the one-entry array. -/
theorem scalar_block_apply (t : Fin cfg2.N) :
    (iblk2 V c 4 t : Vec Ideal S1x1 .f32) (ix2 0 0) = (V c main_v7 : Cert.Spec.SOne.Idx → EReal) (ix2 0 0) := by
  obtain ⟨-, -, -, -, -, -, -, -, -, -, f0, f1, -⟩ := index_facts t
  show (V c main_v7 : Cert.Spec.SOne.Idx → EReal) (((cfg2.win 4).blk t).view.emb (ix2 0 0)) = _
  refine congrArg _ (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-! ## What a point writes back -/

/-- The body's result at entry y of its output block is the scorer at the array index the block puts y at. -/
theorem flushed_entry (t : Fin cfg2.N) (y : S1x64x1024.Idx) :
    k2_pay1 (iblk2 V c 0 t) (iblk2 V c 1 t) (iblk2 V c 2 t) (iblk2 V c 3 t) (iblk2 V c 4 t) y
      = Cert.Spec.score (V c main_v4) (V c main_v3) (V c main_v5) (V c main_v6) (V c main_v7)
          (((cfg2.win 5).blk t).view.emb y) := by
  obtain ⟨y0, r, k, rfl⟩ : ∃ (y0 : Fin 1) (r : Fin 64) (k : Fin 1024), y = ix3 y0 r k := ⟨y 0, y 1, y 2, eq_ix3 y⟩
  obtain rfl : y0 = 0 := Subsingleton.elim _ _
  obtain ⟨-, -, -, -, -, -, -, -, -, -, -, -, -, -, g2⟩ := index_facts t
  refine (scorer_payload_apply _ _ _ _ _ r k).trans ?_
  unfold Cert.Spec.score Cert.Spec.scoreAt
  refine congrArg₂ (· + ·) ?_ (scalar_block_apply V c t)
  refine Finset.sum_congr rfl fun h _ => ?_
  refine congrArg₂ (· * ·) ?_ (weight_block_apply V c t h)
  refine congrArg Ideal.tanh ?_
  refine congrArg₂ (· + ·) ?_ (bias_block_apply V c t h)
  refine congrArg₂ (· + ·) ?_ ?_
  · refine query_block_apply V c t r h _ ?_ ?_ rfl
    · show win2_5.index t (0 : Fin 3) * 1 + 1 * 0 = win2_5.index t (0 : Fin 3); omega
    · show win2_5.index t (1 : Fin 3) * 64 + 1 * r.val = win2_5.index t (1 : Fin 3) * 64 + r.val; omega
  · refine key_block_apply V c t h k _ ?_ rfl ?_
    · show win2_5.index t (0 : Fin 3) * 1 + 1 * 0 = win2_5.index t (0 : Fin 3); omega
    · show win2_5.index t (2 : Fin 3) * 1024 + 1 * k.val = k.val; omega

/-- WHAT POINT t WRITES BACK is block t of the scorer of the five operand arrays as the region finds them. -/
theorem flushed_eq (t : Fin cfg2.N) :
    (dat2 (F := Ideal) V c).flushed 5 t = ((cfg2.win 5).blk t).view.read (Elt Ideal)
      (Cert.Spec.score (V c main_v4) (V c main_v3) (V c main_v5) (V c main_v6) (V c main_v7)) := by
  show (cfg2.win 5).cut (grid2.coords t) ((dat2 (F := Ideal) V c).after 5 t) = _
  rw [after2_5, out_is_payload]
  funext j
  exact flushed_entry V c t j

end Blocks

/-! ## The output blocks cover the array -/

/-- An index of the [2,1024,1024] array is in point t's block iff each coordinate is in the block's range. -/
theorem mem_block (t : Fin cfg2.N) (i : S2x1024x1024.Idx) :
    i ∈ ((cfg2.win 5).blk t).view.set ↔ ∀ a : Fin 3, win2_5.index t a * S1x64x1024.size a ≤ (i a).val
      ∧ (i a).val < win2_5.index t a * S1x64x1024.size a + S1x64x1024.size a := by
  show i ∈ ((View.whole main_v8).slice (win2_5.rect t)).set ↔ _
  rw [View.set_slice_whole, Rect.mem_set_unit]
  exact Iff.rfl

/-- Every index (b, q, k) is in the block of the point whose output block index is (b, q / 64, 0). -/
theorem covered (i : S2x1024x1024.Idx) :
    ∃ t : Fin cfg2.N, (cfg2.win 5).flush t = true ∧ i ∈ ((cfg2.win 5).blk t).view.set := by
  have h0 : (i 0).val < 2 := (i 0).isLt
  have h1 : (i 1).val < 1024 := (i 1).isLt
  have h2 : (i 2).val < 1024 := (i 2).isLt
  obtain ⟨t, ht⟩ := index_onto ⟨(i 0).val, h0⟩ ⟨(i 1).val / 64, by omega⟩
  have q0 : win2_5.index t (0 : Fin 3) = (i 0).val := congrFun ht 0
  have q1 : win2_5.index t (1 : Fin 3) = (i 1).val / 64 := congrFun ht 1
  have q2 : win2_5.index t (2 : Fin 3) = 0 := congrFun ht 2
  refine ⟨t, flush2_5 t, ?_⟩
  rw [mem_block]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 64 ≤ (i 1).val ∧ (i 1).val < win2_5.index t (1 : Fin 3) * 64 + 64; omega
  | ⟨2, _⟩ => show win2_5.index t (2 : Fin 3) * 1024 ≤ (i 2).val ∧ (i 2).val < win2_5.index t (2 : Fin 3) * 1024 + 1024; omega

/-! ## The output array after the region's run -/

/-- After region 2's run its output array is the scorer of the five operand arrays as the region found them. -/
theorem final2 (V : (c : Dev nD) → (b : Ref sig .tc) → Buf (Elt Ideal) ((c : Thread nD τ).loc b)) (c : Dev nD) :
    (dat2 (F := Ideal) V c).arrAt 5 cfg2.N
      = Cert.Spec.score (V c main_v4) (V c main_v3) (V c main_v5) (V c main_v6) (V c main_v7) :=
  (dat2 (F := Ideal) V c).arrAt_eq_of_cover 5 _ (fun t _ => flushed_eq V c t) covered

end Cert.KernelIdeal.ScoreValue

end
-- ==== Proof.RefValue.lean ====
/-
  The jnp reference, read one StableHLO operation at a time, is the additive-attention scorer of the
  specification: at (b, q, k) it is (Σ_h tanh((hq[b,q,h] + hk[b,k,h]) + b1[h]) · W2[h,0]) + b2[0].

  The reference slices W1 into its upper and lower halves, contracts keys and queries against them,
  broadcasts hk along the query axis and hq along the key axis, adds them (hk first), adds b1, takes
  tanh, contracts the hidden axis against W2, drops the trailing unit axis and adds b2 read as a scalar.
  Each layout operation reads its operand at an index computed from the result's index; composing those
  index maps and doing the div/mod arithmetic of the one reshape identifies every operand read with the
  coordinate the specification names.  The only algebra is commutativity of addition on the extended reals.
-/
import proofs.«178992_j6597069767500_1_alg».proof.Proof.Gen.ReferenceIdeal.Read
import proofs.«178992_j6597069767500_1_alg».proof.Proof.Spec

noncomputable section

namespace Cert.ReferenceIdeal.RefValue

open Idealize.ShloMosaic Idealize.ShloMosaic.ValueIdx Cert.ReferenceIdeal Cert.ReferenceIdeal.Read

/-- The index at which the hidden-axis contraction reads its left operand for output (b, q, k) and hidden
    unit h: the reshape's index is undone by div/mod arithmetic, giving (b, q, k, h). -/
abbrev at4 (i : S2x1024x1024.Idx) (h : Fin 32) : S2x1024x1024x32.Idx := lidx_main_v13 (idx_main_v14 i) h

/-- The key projection broadcast to [2, 1024, 1024, 32], read at (b, q, k, h), is hk[b, k, h]. -/
theorem hk_read (x0 : (⟨S2x1024x512, .f32⟩ : BufTy).Contents (Elt Ideal)) (x2 : (⟨S1024x32, .f32⟩ : BufTy).Contents (Elt Ideal))
    (i : S2x1024x1024.Idx) (h : Fin 32) :
    val_main_v6 (F := Ideal) x0 x2 (at4 i h)
      = Cert.Spec.hkAt x0 x2 ⟨(i 0).val, (i 0).isLt⟩ ⟨(i 2).val, (i 2).isLt⟩ h := by
  have h0 : (i 0).val < 2 := (i 0).isLt
  have h1 : (i 1).val < 1024 := (i 1).isLt
  have h2 : (i 2).val < 1024 := (i 2).isLt
  rw [val_main_v6_apply, val_main_v4_apply, val_main_v1_apply]
  unfold Cert.Spec.hkAt
  refine Finset.sum_congr rfl fun d _ => ?_
  rw [val_main_v0_apply]
  have el : lidx_main_v1 (idx_main_v4 (idx_main_v6 (at4 i h))) d
      = ix3 (⟨(i 0).val, (i 0).isLt⟩ : Fin 2) (⟨(i 2).val, (i 2).isLt⟩ : Fin 1024) d := funext fun a => Fin.ext (by
    match a with
    | ⟨0, _⟩ => show (((i 0).val * 1024 + (i 1).val) * 1024 + (i 2).val) / 1048576 = (i 0).val; omega
    | ⟨1, _⟩ => show (((i 0).val * 1024 + (i 1).val) * 1024 + (i 2).val) / 1 % 1024 = (i 2).val; omega
    | ⟨2, _⟩ => rfl)
  have er : idx_main_v0 (ridx_main_v1 (idx_main_v4 (idx_main_v6 (at4 i h))) d)
      = ix2 (⟨d.val, by have := d.isLt; omega⟩ : Fin 1024) h := funext fun a => Fin.ext (by
    match a with
    | ⟨0, _⟩ => rfl
    | ⟨1, _⟩ => rfl)
  rw [el, er]

/-- The query projection broadcast to [2, 1024, 1024, 32], read at (b, q, k, h), is hq[b, q, h]. -/
theorem hq_read (x1 : (⟨S2x1024x512, .f32⟩ : BufTy).Contents (Elt Ideal)) (x2 : (⟨S1024x32, .f32⟩ : BufTy).Contents (Elt Ideal))
    (i : S2x1024x1024.Idx) (h : Fin 32) :
    val_main_v7 (F := Ideal) x1 x2 (at4 i h)
      = Cert.Spec.hqAt x1 x2 ⟨(i 0).val, (i 0).isLt⟩ ⟨(i 1).val, (i 1).isLt⟩ h := by
  have h0 : (i 0).val < 2 := (i 0).isLt
  have h1 : (i 1).val < 1024 := (i 1).isLt
  have h2 : (i 2).val < 1024 := (i 2).isLt
  rw [val_main_v7_apply, val_main_v5_apply, val_main_v3_apply]
  unfold Cert.Spec.hqAt
  refine Finset.sum_congr rfl fun d _ => ?_
  rw [val_main_v2_apply]
  have el : lidx_main_v3 (idx_main_v5 (idx_main_v7 (at4 i h))) d
      = ix3 (⟨(i 0).val, (i 0).isLt⟩ : Fin 2) (⟨(i 1).val, (i 1).isLt⟩ : Fin 1024) d := funext fun a => Fin.ext (by
    match a with
    | ⟨0, _⟩ => show (((i 0).val * 1024 + (i 1).val) * 1024 + (i 2).val) / 1048576 = (i 0).val; omega
    | ⟨1, _⟩ => show (((i 0).val * 1024 + (i 1).val) * 1024 + (i 2).val) / 1024 % 1024 = (i 1).val; omega
    | ⟨2, _⟩ => rfl)
  have er : idx_main_v2 (ridx_main_v3 (idx_main_v5 (idx_main_v7 (at4 i h))) d)
      = ix2 (⟨512 + d.val, by have := d.isLt; omega⟩ : Fin 1024) h := funext fun a => Fin.ext (by
    match a with
    | ⟨0, _⟩ => rfl
    | ⟨1, _⟩ => rfl)
  rw [el, er]

/-- The bias b1 broadcast to [2, 1024, 1024, 32], read at (b, q, k, h), is b1[h]. -/
theorem b1_read (x3 : (⟨S32, .f32⟩ : BufTy).Contents (Elt Ideal)) (i : S2x1024x1024.Idx) (h : Fin 32) :
    val_main_v10 (F := Ideal) x3 (at4 i h) = x3 (ix1 h) := by
  rw [val_main_v10_apply, val_main_v9_apply]
  have e : idx_main_v9 (idx_main_v10 (at4 i h)) = ix1 h := funext fun a => Fin.ext (by
    match a with
    | ⟨0, _⟩ => rfl)
  rw [e]

/-- The hidden-axis contraction reads W2 at (h, 0): the result's trailing unit coordinate is 0. -/
theorem w2_idx (i : S2x1024x1024.Idx) (h : Fin 32) :
    ridx_main_v13 (idx_main_v14 i) h = ix2 h (0 : Fin 1) := funext fun a => Fin.ext (by
  match a with
  | ⟨0, _⟩ => rfl
  | ⟨1, _⟩ => rfl)

/-- b2 reshaped to a scalar and broadcast reads b2[0] everywhere: a rank-0 array has one position, 0. -/
theorem b2_read (x5 : (⟨S1, .f32⟩ : BufTy).Contents (Elt Ideal)) (i : S2x1024x1024.Idx) :
    val_main_v16 (F := Ideal) x5 i = x5 (ix1 (0 : Fin 1)) := by
  rw [val_main_v16_apply]
  unfold val_main_v15
  exact shapeCast_apply x5 _ (idx_main_v16 i) (ix1 (0 : Fin 1))
    (by rw [Shape.rowMajor_val_one]; exact (Shape.rowMajorPi_zero _ _).symm)

/-- The reference is the specification's logits, index by index. -/
theorem ref_eq (x0 x1 : (⟨S2x1024x512, .f32⟩ : BufTy).Contents (Elt Ideal)) (x2 : (⟨S1024x32, .f32⟩ : BufTy).Contents (Elt Ideal)) (x3 : (⟨S32, .f32⟩ : BufTy).Contents (Elt Ideal)) (x4 : (⟨S32x1, .f32⟩ : BufTy).Contents (Elt Ideal)) (x5 : (⟨S1, .f32⟩ : BufTy).Contents (Elt Ideal)) :
    val_main_v17 (F := Ideal) x0 x1 x2 x3 x4 x5 = Cert.Spec.logits x0 x1 x2 x3 x4 x5 := by
  funext i
  rw [val_main_v17_apply, val_main_v14_apply, val_main_v13_apply, b2_read, Ideal.addf_def]
  unfold Cert.Spec.logits Cert.Spec.logitsAt
  refine congrArg (· + x5 (ix1 (0 : Fin 1))) ?_
  refine Finset.sum_congr rfl fun h _ => ?_
  show val_main_v12 (F := Ideal) x0 x1 x2 x3 (at4 i h) * x4 (ridx_main_v13 (idx_main_v14 i) h) = _
  rw [w2_idx, val_main_v12_apply, val_main_v11_apply, val_main_v8_apply, hk_read, hq_read, b1_read,
    Ideal.hostUnary_tanh_def, Ideal.addf_def, Ideal.addf_def,
    add_comm (Cert.Spec.hkAt x0 x2 ⟨(i 0).val, (i 0).isLt⟩ ⟨(i 2).val, (i 2).isLt⟩ h)]

end Cert.ReferenceIdeal.RefValue

end
-- ==== Proof.lean ====
/-
  The certificate of the additive-attention scorer: a Pallas kernel in three launches against its jnp reference,
  equal over the extended reals.

  With keys K and queries Q : [2, 1024, 512], W1 : [1024, 32], b1 : [32], W2 : [32, 1], b2 : [1], both programs compute

      logits[b, q, k] = (Σ_h tanh((hq[b, q, h] + hk[b, k, h]) + b1[h]) · W2[h, 0]) + b2[0],
      hk[b, k, h] = Σ_d K[b, k, d] · W1[d, h],      hq[b, q, h] = Σ_d Q[b, q, d] · W1[512 + d, h]

  (`Cert.Spec.logits`).  The kernel projects keys and queries in two launches (a bf16 matrix product into an f32 zero
  accumulator: at the ideal instance a change of format is the identity and the product a plain sum), transposes hk on
  the host, and scores in a third launch tiled over (batch, 64 query rows): a lane sum over the hidden axis.  The
  reference contracts with dot_general, broadcasts, and adds hk + hq in the other order.  A sum over the extended reals
  does not depend on its order or tiling, and addition there is commutative, so the two agree on every input; the
  precondition (finite inputs) is never opened.

  The three frames: the kernel's two are the generated frame certificates; the reference's is its generated run with the
  result dropped.  The idealization rewrote nothing, so `preserves` is trivial.  For `algebraic`: the kernel's run with its
  result array named (`RunNamed.run_named`), that array as `logits` of the arguments (`Chain.result_value`, over what each
  launch's output array holds: `ProjValue.final0`, `ProjValue.final1`, `ScoreValue.final2`), and the reference's last
  stage as the same function (`RefValue.ref_eq`).
-/
import proofs.«178992_j6597069767500_1_alg».proof.Defs
import proofs.«178992_j6597069767500_1_alg».proof.Proof.Gen.Kernel
import proofs.«178992_j6597069767500_1_alg».proof.Proof.Gen.Kernel.Frame
import proofs.«178992_j6597069767500_1_alg».proof.Proof.Gen.KernelIdeal
import proofs.«178992_j6597069767500_1_alg».proof.Proof.Gen.KernelIdeal.Frame
import proofs.«178992_j6597069767500_1_alg».proof.Proof.Gen.ReferenceIdeal
import proofs.«178992_j6597069767500_1_alg».proof.Proof.Gen.ReferenceIdeal.Run
import proofs.«178992_j6597069767500_1_alg».proof.Proof.Gen.ReferenceIdeal.Read
import proofs.«178992_j6597069767500_1_alg».proof.Proof.Gen.Pre_finite_inputs
import proofs.«178992_j6597069767500_1_alg».proof.Proof.RunNamed
import proofs.«178992_j6597069767500_1_alg».proof.Proof.Chain
import proofs.«178992_j6597069767500_1_alg».proof.Proof.ProjValue
import proofs.«178992_j6597069767500_1_alg».proof.Proof.ScoreValue
import proofs.«178992_j6597069767500_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `logits` of those arguments in their
    result arrays, the arguments unchanged. -/
theorem algebraic : Cert.algebraic_KernelIdeal_ReferenceIdeal := by
  intro m ρ m' ρ' _ hagree
  refine ⟨fun c => Cert.Spec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_value m ρ Cert.KernelIdeal.ProjValue.final0
          Cert.KernelIdeal.ProjValue.final1 Cert.KernelIdeal.ScoreValue.final2 c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
